-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_v14) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S16x2048x1024 : Shape := ⟨3, ![16, 2048, 1024]⟩
abbrev S16x2048 : Shape := ⟨2, ![16, 2048]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S16x2048x1024 : S_.BroadcastsInDim S16x2048x1024 (![] : Fin 0 → Fin S16x2048x1024.rank)
  reducesTo_S16x2048x1024_S_d0_1_2 : S16x2048x1024.ReducesTo [0, 1, 2] S_
  bcast_S_S16x2048 : S_.BroadcastsInDim S16x2048 (![] : Fin 0 → Fin S16x2048.rank)
  reducesTo_S16x2048_S_d0_1 : S16x2048.ReducesTo [0, 1] S_

variable [Facts]

def fn_part1 {F : FTy → Type} [FloatOps F] (main_arg4 : FVec F S16x2048x1024 .f32) (main_v13 : IVec S_ 1) (main_v16 : IVec S16x2048 1) : IVec S_ 1 :=
  let main_c_5 : IVec S_ 1 := constantI S_ 1 1#1
  let main_v17 : IVec S_ 1 := (fun x v => Host.reduce IntOp.andi x v reducesTo_S16x2048_S_d0_1 h_S_) main_v16 main_c_5
  let main_v18 : IVec S_ 1 := andi main_v13 main_v17
  let main_v19 : FVec F S16x2048x1024 .f32 := Host.absf main_arg4
  let main_cst_6 : FVec F S_ .f32 := constant S_ .f32 0x7F800000#32
  let main_v20 : FVec F S16x2048x1024 .f32 := broadcastInDim S16x2048x1024 ![] bcast_S_S16x2048x1024 main_cst_6
  let main_v21 : IVec S16x2048x1024 1 := cmpf .olt main_v19 main_v20
  let main_c_7 : IVec S_ 1 := constantI S_ 1 1#1
  let main_v22 : IVec S_ 1 := (fun x v => Host.reduce IntOp.andi x v reducesTo_S16x2048x1024_S_d0_1_2 h_S_) main_v21 main_c_7
  let main_v23 : IVec S_ 1 := andi main_v18 main_v22
  main_v23

def fn {F : FTy → Type} [FloatOps F] (main_arg0 : FVec F S4096x1024 .f32) (main_arg1 : FVec F S4096x1024 .f32) (main_arg2 : FVec F S16x2048x1024 .f32) (main_arg3 : FVec F S16x2048 .f32) (main_arg4 : FVec F S16x2048x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S16x2048x1024 .f32 := Host.absf main_arg2
  let main_cst_2 : FVec F S_ .f32 := constant S_ .f32 0x7F800000#32
  let main_v10 : FVec F S16x2048x1024 .f32 := broadcastInDim S16x2048x1024 ![] bcast_S_S16x2048x1024 main_cst_2
  let main_v11 : IVec S16x2048x1024 1 := cmpf .olt main_v9 main_v10
  let main_c_3 : IVec S_ 1 := constantI S_ 1 1#1
  let main_v12 : IVec S_ 1 := (fun x v => Host.reduce IntOp.andi x v reducesTo_S16x2048x1024_S_d0_1_2 h_S_) main_v11 main_c_3
  let main_v13 : IVec S_ 1 := andi main_v8 main_v12
  let main_v14 : FVec F S16x2048 .f32 := Host.absf main_arg3
  let main_cst_4 : FVec F S_ .f32 := constant S_ .f32 0x7F800000#32
  let main_v15 : FVec F S16x2048 .f32 := broadcastInDim S16x2048 ![] bcast_S_S16x2048 main_cst_4
  let main_v16 : IVec S16x2048 1 := cmpf .olt main_v14 main_v15
  fn_part1 (F := F) main_arg4 main_v13 main_v16
-- ==== Kernel.lean ====
abbrev S4096x1024 : Shape := ⟨2, ![4096, 1024]⟩
abbrev S16x2048x1024 : Shape := ⟨3, ![16, 2048, 1024]⟩
abbrev S16x2048 : Shape := ⟨2, ![16, 2048]⟩
abbrev S16x1x2048 : Shape := ⟨3, ![16, 1, 2048]⟩
abbrev S16x4096x1024 : Shape := ⟨3, ![16, 4096, 1024]⟩
abbrev S256x1024 : Shape := ⟨2, ![256, 1024]⟩
abbrev S1x2048x1024 : Shape := ⟨3, ![1, 2048, 1024]⟩
abbrev S1x1x2048 : Shape := ⟨3, ![1, 1, 2048]⟩
abbrev S1x256x1024 : Shape := ⟨3, ![1, 256, 1024]⟩
abbrev S2048x1024 : Shape := ⟨2, ![2048, 1024]⟩
abbrev S2048 : Shape := ⟨1, ![2048]⟩
abbrev S256x2048 : Shape := ⟨2, ![256, 2048]⟩
abbrev S1x2048 : Shape := ⟨2, ![1, 2048]⟩
abbrev S4096x16x1024 : Shape := ⟨3, ![4096, 16, 1024]⟩

abbrev nBuf : Space → Nat
  | .hbm => 14
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S16x2048x1024, .f32⟩
  | .hbm, ⟨3, _⟩ => ⟨S16x2048, .f32⟩
  | .hbm, ⟨4, _⟩ => ⟨S16x2048x1024, .f32⟩
  | .hbm, ⟨5, _⟩ => ⟨S4096x1024, .bf16⟩
  | .hbm, ⟨6, _⟩ => ⟨S4096x1024, .bf16⟩
  | .hbm, ⟨7, _⟩ => ⟨S16x2048x1024, .bf16⟩
  | .hbm, ⟨8, _⟩ => ⟨S16x2048x1024, .bf16⟩
  | .hbm, ⟨9, _⟩ => ⟨S16x1x2048, .f32⟩
  | .hbm, ⟨10, _⟩ => ⟨S16x4096x1024, .f32⟩
  | .hbm, ⟨11, _⟩ => ⟨S16x4096x1024, .f32⟩
  | .hbm, ⟨12, _⟩ => ⟨S4096x16x1024, .f32⟩
  | .hbm, ⟨13, _⟩ => ⟨S4096x16x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S1x2048x1024, .bf16⟩
  | .local _ .vmem, ⟨5, _⟩ => ⟨S1x2048x1024, .bf16⟩
  | .local _ .vmem, ⟨6, _⟩ => ⟨S1x2048x1024, .bf16⟩
  | .local _ .vmem, ⟨7, _⟩ => ⟨S1x2048x1024, .bf16⟩
  | .local _ .vmem, ⟨8, _⟩ => ⟨S1x1x2048, .f32⟩
  | .local _ .vmem, ⟨9, _⟩ => ⟨S1x1x2048, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  bitsLt_bf16_f32 : FTy.bits .bf16 < FTy.bits .f32
  shapeCasts_S16x2048_S16x1x2048 : S16x2048.ShapeCasts S16x1x2048
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S2048 : S1x1x2048.ShapeCasts S2048
  shapeCasts_S2048_S1x2048 : S2048.ShapeCasts S1x2048
  broadcasts_S1x2048_S256x2048 : S1x2048.Broadcasts S256x2048
  slices_S256x2048_o0_0_S256x1024 : S256x2048.Slices ![0, 0] S256x1024
  slices_S256x2048_o0_1024_S256x1024 : S256x2048.Slices ![0, 1024] S256x1024
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  shapeCasts_S256x1024_S1x256x1024 : S256x1024.ShapeCasts S1x256x1024
  transposes_S16x4096x1024_S4096x16x1024_1_0_2 : S16x4096x1024.Transposes [1, 0, 2] S4096x16x1024
  dot_S256x1024_S2048x1024_S256x2048_1_1_0_0_n_n_wf : DotDims.WF S256x1024 S2048x1024 S256x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S4096x1024.size a
  hwx0_0 : ∀ i : grid0.Coords, EltTy.bits .bf16 = 32 ∨ (Rect.block (s := S4096x1024) S256x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S4096x1024.size a
  hwx0_1 : ∀ i : grid0.Coords, EltTy.bits .bf16 = 32 ∨ (Rect.block (s := S4096x1024) S256x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x1024.size a ≤ S16x2048x1024.size a
  hwx0_2 : ∀ i : grid0.Coords, EltTy.bits .bf16 = 32 ∨ (Rect.block (s := S16x2048x1024) S1x2048x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x1024.size a ≤ S16x2048x1024.size a
  hwx0_3 : ∀ i : grid0.Coords, EltTy.bits .bf16 = 32 ∨ (Rect.block (s := S16x2048x1024) S1x2048x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x2048.size a ≤ S16x1x2048.size a
  hwx0_4 : ∀ i : grid0.Coords, EltTy.bits .f32 = 32 ∨ (Rect.block (s := S16x1x2048) S1x1x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256x1024.size a ≤ S16x4096x1024.size a
  hwx0_5 : ∀ i : grid0.Coords, EltTy.bits .f32 = 32 ∨ (Rect.block (s := S16x4096x1024) S1x256x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x256x1024.size a ≤ S16x4096x1024.size a
  hwx0_6 : ∀ i : grid0.Coords, EltTy.bits .f32 = 32 ∨ (Rect.block (s := S16x4096x1024) S1x256x1024.size (cc0_transform_6 i) (hinb0_6 i)).WholeWords (EltTy.packing .f32)

variable [Facts₀]

def dot_S256x1024_S2048x1024_S256x2048_1_1_0_0_n_n : DotDims S256x1024 S2048x1024 S256x2048 where
  lhsContracting := [1]
  rhsContracting := [1]
  lhsNonContracting := [0]
  rhsNonContracting := [0]
  lhsBatch := []
  rhsBatch := []
  wf := dot_S256x1024_S2048x1024_S256x2048_1_1_0_0_n_n_wf

abbrev win0_0 : Pipeline.Window sig grid0 :=
  Pipeline.Window.ofSpec (Memref.whole main_v0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2048x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x2048x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x1x2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5_0) S1x256x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v5_1) S1x256x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S16x2048x1024 : Shape := ⟨3, ![16, 2048, 1024]⟩
abbrev S16x2048 : Shape := ⟨2, ![16, 2048]⟩
abbrev S4096x16x2048 : Shape := ⟨3, ![4096, 16, 2048]⟩
abbrev S1x16x2048 : Shape := ⟨3, ![1, 16, 2048]⟩
abbrev S4096x16x1024 : Shape := ⟨3, ![4096, 16, 1024]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S16x2048x1024, .f32⟩
  | .hbm, ⟨3, _⟩ => ⟨S16x2048, .f32⟩
  | .hbm, ⟨4, _⟩ => ⟨S16x2048x1024, .f32⟩
  | .hbm, ⟨5, _⟩ => ⟨S4096x16x2048, .f32⟩
  | .hbm, ⟨6, _⟩ => ⟨S4096x16x2048, .f32⟩
  | .hbm, ⟨7, _⟩ => ⟨S4096x16x2048, .f32⟩
  | .hbm, ⟨8, _⟩ => ⟨S1x16x2048, .f32⟩
  | .hbm, ⟨9, _⟩ => ⟨S4096x16x2048, .f32⟩
  | .hbm, ⟨10, _⟩ => ⟨S4096x16x2048, .f32⟩
  | .hbm, ⟨11, _⟩ => ⟨S4096x16x1024, .f32⟩
  | .hbm, ⟨12, _⟩ => ⟨S4096x16x1024, .f32⟩
  | .hbm, ⟨13, _⟩ => ⟨S4096x16x1024, .f32⟩
  | .hbm, ⟨14, _⟩ => ⟨S4096x16x1024, .f32⟩
  | .hbm, ⟨15, _⟩ => ⟨S4096x16x1024, .f32⟩
  | .hbm, ⟨16, _⟩ => ⟨S_, .f32⟩
  | .hbm, ⟨17, _⟩ => ⟨S4096x16x1024, .f32⟩
  | .hbm, ⟨18, _⟩ => ⟨S4096x16x1024, .f32⟩
  | .hbm, ⟨19, _⟩ => ⟨S_, .f32⟩
  | .hbm, ⟨20, _⟩ => ⟨S4096x16x1024, .f32⟩
  | .hbm, ⟨21, _⟩ => ⟨S4096x16x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]

class Facts₀ : Prop where
  bcast_S16x2048_S1x16x2048_1_2 : S16x2048.BroadcastsInDim S1x16x2048 (![1, 2] : Fin 2 → Fin S1x16x2048.rank)
  bcast_S1x16x2048_S4096x16x2048_0_1_2 : S1x16x2048.BroadcastsInDim S4096x16x2048 (![0, 1, 2] : Fin 3 → Fin S4096x16x2048.rank)
  slices_S4096x16x2048_S4096x16x1024_0_0_0 : S4096x16x2048.Slices ![0, 0, 0] S4096x16x1024
  slices_S4096x16x2048_S4096x16x1024_0_0_1024 : S4096x16x2048.Slices ![0, 0, 1024] S4096x16x1024
  bcast_S_S4096x16x1024 : S_.BroadcastsInDim S4096x16x1024 (![] : Fin 0 → Fin S4096x16x1024.rank)
  dot_S4096x1024_S16x2048x1024_S4096x16x2048_1_2_0_01_n_n_wf : DotDims.WF S4096x1024 S16x2048x1024 S4096x16x2048 [1] [2] [0] [0, 1] [] []

variable [Facts₀]

def dot_S4096x1024_S16x2048x1024_S4096x16x2048_1_2_0_01_n_n : DotDims S4096x1024 S16x2048x1024 S4096x16x2048 where
  lhsContracting := [1]
  rhsContracting := [2]
  lhsNonContracting := [0]
  rhsNonContracting := [0, 1]
  lhsBatch := []
  rhsBatch := []
  wf := dot_S4096x1024_S16x2048x1024_S4096x16x2048_1_2_0_01_n_n_wf

class Facts : Prop extends Facts₀ where

variable [Facts]
-- ==== Proof.GridFacts.lean ====
/-
  The index maps over the 16 × 16 grid, decided once.

  A grid point is (cell, batch tile). The input's and the hidden state's windows follow the batch tile on their rows;
  the two weight windows and the bias window follow the cell on their leading axis; both output windows sit at
  (cell, batch tile, 0). Every (cell, batch tile) pair is some point's.
-/
import proofs.«105045_j78735340470740_1_alg».proof.Proof.Gen.KernelIdeal.Points

set_option maxRecDepth 16384

noncomputable section

namespace Cert.KernelIdeal.Arrays

open Cert.KernelIdeal Cert.KernelIdeal.Gen Idealize.ShloMosaic

theorem idx_facts : ∀ t : Fin cfg0.N,
    win0_0.index t (0 : Fin 2) = win0_5.index t (1 : Fin 3) ∧ win0_0.index t (1 : Fin 2) = 0
    ∧ win0_1.index t (0 : Fin 2) = win0_5.index t (1 : Fin 3) ∧ win0_1.index t (1 : Fin 2) = 0
    ∧ win0_2.index t (0 : Fin 3) = win0_5.index t (0 : Fin 3) ∧ win0_2.index t (1 : Fin 3) = 0 ∧ win0_2.index t (2 : Fin 3) = 0
    ∧ win0_3.index t (0 : Fin 3) = win0_5.index t (0 : Fin 3) ∧ win0_3.index t (1 : Fin 3) = 0 ∧ win0_3.index t (2 : Fin 3) = 0
    ∧ win0_4.index t (0 : Fin 3) = win0_5.index t (0 : Fin 3) ∧ win0_4.index t (1 : Fin 3) = 0 ∧ win0_4.index t (2 : Fin 3) = 0
    ∧ win0_6.index t (0 : Fin 3) = win0_5.index t (0 : Fin 3) ∧ win0_6.index t (1 : Fin 3) = win0_5.index t (1 : Fin 3) ∧ win0_6.index t (2 : Fin 3) = 0
    ∧ win0_5.index t (0 : Fin 3) ≤ 15 ∧ win0_5.index t (1 : Fin 3) ≤ 15 ∧ win0_5.index t (2 : Fin 3) = 0 :=
  (by decide +kernel : ∀ t : Fin grid0.N, _)

theorem idx_onto : ∀ (q0 : Fin 16) (q1 : Fin 16), ∃ t : Fin cfg0.N, win0_5.index t = ![q0.val, q1.val, 0] :=
  (by decide +kernel : ∀ (q0 : Fin 16) (q1 : Fin 16), ∃ t : Fin grid0.N, win0_5.index t = ![q0.val, q1.val, 0])

end Cert.KernelIdeal.Arrays

end
-- ==== Proof.KernelPoint.lean ====
/-
  One grid point's arithmetic, read at an index.

  The body loads a 256-row block of the input `x` and of the hidden state `h`, one cell's two 2048×1024 weight
  matrices and that cell's 2048 biases. Both matrix products contract the LAST axis of both operands, so the entry
  (p, o) of a product is Σ_k l[p,k]·r[o,k]; the two products are added, then the bias row is added to every batch
  row. The gate block is the logistic of columns 0…1023 and the cell block the hyperbolic tangent of columns
  1024…2047, each stored with a unit leading axis.
-/
import proofs.«105045_j78735340470740_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Point

open Cert.KernelIdeal Cert.KernelIdeal.Gen Idealize.ShloMosaic Idealize.ShloMosaic.ValueIdx

/-! ## The product that contracts both operands' last axis -/

theorem lhs_row (i : S256x2048.Idx) (q : dot_S256x1024_S2048x1024_S256x2048_1_1_0_0_n_n.contr.Idx) :
    (dot_S256x1024_S2048x1024_S256x2048_1_1_0_0_n_n.lhsIdx i q 0).val = (i 0).val := by
  unfold DotDims.lhsIdx
  rw [dif_neg (show ¬(0 : Fin S256x1024.rank) ∈ dot_S256x1024_S2048x1024_S256x2048_1_1_0_0_n_n.lhsBatch by decide), dif_pos (show (0 : Fin S256x1024.rank) ∈ dot_S256x1024_S2048x1024_S256x2048_1_1_0_0_n_n.lhsNonContracting by decide)]
  rfl
theorem lhs_contr (i : S256x2048.Idx) (q : dot_S256x1024_S2048x1024_S256x2048_1_1_0_0_n_n.contr.Idx) :
    (dot_S256x1024_S2048x1024_S256x2048_1_1_0_0_n_n.lhsIdx i q 1).val = (q ⟨0, by decide⟩).val :=
  dot_S256x1024_S2048x1024_S256x2048_1_1_0_0_n_n.lhsIdx_val_of_single rfl i q
theorem rhs_row (i : S256x2048.Idx) (q : dot_S256x1024_S2048x1024_S256x2048_1_1_0_0_n_n.contr.Idx) :
    (dot_S256x1024_S2048x1024_S256x2048_1_1_0_0_n_n.rhsIdx i q 0).val = (i 1).val := by
  unfold DotDims.rhsIdx
  rw [dif_neg (show ¬(0 : Fin S2048x1024.rank) ∈ dot_S256x1024_S2048x1024_S256x2048_1_1_0_0_n_n.rhsBatch by decide), dif_pos (show (0 : Fin S2048x1024.rank) ∈ dot_S256x1024_S2048x1024_S256x2048_1_1_0_0_n_n.rhsNonContracting by decide)]
  rfl
theorem rhs_contr (i : S256x2048.Idx) (q : dot_S256x1024_S2048x1024_S256x2048_1_1_0_0_n_n.contr.Idx) :
    (dot_S256x1024_S2048x1024_S256x2048_1_1_0_0_n_n.rhsIdx i q 1).val = (q ⟨0, by decide⟩).val :=
  dot_S256x1024_S2048x1024_S256x2048_1_1_0_0_n_n.rhsIdx_val_of_single rfl i q

/-- Entry (p, o) of the product into the zero accumulator: row `p` of the left operand against row `o` of the right. -/
theorem rowsDot_apply (l : FVec Ideal S256x1024 .bf16) (r : FVec Ideal S2048x1024 .bf16) (p : Fin 256) (o : Fin 2048) :
    matmul dot_S256x1024_S2048x1024_S256x2048_1_1_0_0_n_n none l r (constant (F := Ideal) S256x2048 .f32 0x00000000#32) (ix2 p o)
      = ∑ k : Fin 1024, l (ix2 p k) * r (ix2 o k) := by
  simp only [matmul]
  rw [Ideal.matmul_constant_zero_apply, ← Equiv.sum_comp (contrEquiv1 dot_S256x1024_S2048x1024_S256x2048_1_1_0_0_n_n 1024 rfl rfl).symm]
  refine Finset.sum_congr rfl fun k _ => ?_
  have hk := contrEquiv1_symm_val dot_S256x1024_S2048x1024_S256x2048_1_1_0_0_n_n 1024 rfl rfl k
  have el : dot_S256x1024_S2048x1024_S256x2048_1_1_0_0_n_n.lhsIdx (ix2 p o) ((contrEquiv1 dot_S256x1024_S2048x1024_S256x2048_1_1_0_0_n_n 1024 rfl rfl).symm k) = ix2 p k := funext fun a => Fin.ext (by
    match a with
    | ⟨0, _⟩ => exact lhs_row _ _
    | ⟨1, _⟩ => exact (lhs_contr _ _).trans hk)
  have er : dot_S256x1024_S2048x1024_S256x2048_1_1_0_0_n_n.rhsIdx (ix2 p o) ((contrEquiv1 dot_S256x1024_S2048x1024_S256x2048_1_1_0_0_n_n 1024 rfl rfl).symm k) = ix2 o k := funext fun a => Fin.ext (by
    match a with
    | ⟨0, _⟩ => exact rhs_row _ _
    | ⟨1, _⟩ => exact (rhs_contr _ _).trans hk)
  rw [el, er]

/-! ## The bias row -/

/-- A [1, 1, n] block viewed as a vector reads its entry `o` at (0, 0, o). -/
theorem dropTwoUnits_apply {α : Type} (v : S1x1x2048.Idx → α) (h : S1x1x2048.ShapeCasts S2048) (o : Fin 2048) :
    shapeCast S2048 v h (ix1 o) = v (ix3 (0 : Fin 1) (0 : Fin 1) o) :=
  shapeCast_apply v h _ _ (by
    rw [Shape.rowMajor_val_three, Shape.rowMajor_val_one]
    show (0 * 1 + 0) * 2048 + o.val = o.val
    omega)

/-! ## The pre-activation block and the two stored blocks -/

/-- The pre-activation at batch row `p` of the block and column `o`: the two contractions, added, plus the bias. -/
theorem preact_apply (v0 v2 : FVec Ideal S256x1024 .bf16) (v4 v6 : FVec Ideal S1x2048x1024 .bf16) (v8 : FVec Ideal S1x1x2048 .f32)
    (p : Fin 256) (o : Fin 2048) :
    k0_pay1 (F := Ideal) v0 v2 v4 v6 v8 (ix2 p o)
      = (∑ k : Fin 1024, v0 (ix2 p k) * v4 (ix3 (0 : Fin 1) o k) + ∑ k : Fin 1024, v2 (ix2 p k) * v6 (ix3 (0 : Fin 1) o k))
        + v8 (ix3 (0 : Fin 1) (0 : Fin 1) o) := by
  unfold k0_pay1
  simp only [shapeCast_self]
  rw [addf_apply, addf_apply, rowsDot_apply, rowsDot_apply, broadcastTo_1b_ab_apply, shapeCast_a_1a_apply, dropTwoUnits_apply]
  simp only [shapeCast_1ab_ab_apply]

/-- The stored gate block at (u, p, q) is the logistic of the pre-activation at row `p`, lower column `q`. -/
theorem gateBlock_apply (v0 v2 : FVec Ideal S256x1024 .bf16) (v4 v6 : FVec Ideal S1x2048x1024 .bf16) (v8 : FVec Ideal S1x1x2048 .f32)
    (u : Fin 1) (p : Fin 256) (q : Fin 1024) (o : Fin 2048) (ho : o.val = q.val) :
    k0_pay2 (F := Ideal) v0 v2 v4 v6 v8 (ix3 u p q) = Ideal.logistic (k0_pay1 (F := Ideal) v0 v2 v4 v6 v8 (ix2 p o)) := by
  unfold k0_pay2
  rw [shapeCast_ab_1ab_apply]
  show Ideal.logistic (extractStridedSlice S256x1024 ![0, 0] (k0_pay1 (F := Ideal) v0 v2 v4 v6 v8) slices_S256x2048_o0_0_S256x1024 (ix2 p q)) = _
  rw [slice2_axis1_apply 0 (k0_pay1 (F := Ideal) v0 v2 v4 v6 v8) slices_S256x2048_o0_0_S256x1024 p q o (by omega)]

/-- The stored cell block at (u, p, q) is the hyperbolic tangent of the pre-activation at row `p`, upper column `q`. -/
theorem cellBlock_apply (v0 v2 : FVec Ideal S256x1024 .bf16) (v4 v6 : FVec Ideal S1x2048x1024 .bf16) (v8 : FVec Ideal S1x1x2048 .f32)
    (u : Fin 1) (p : Fin 256) (q : Fin 1024) (o : Fin 2048) (ho : o.val = 1024 + q.val) :
    k0_pay3 (F := Ideal) v0 v2 v4 v6 v8 (ix3 u p q) = Ideal.tanh (k0_pay1 (F := Ideal) v0 v2 v4 v6 v8 (ix2 p o)) := by
  unfold k0_pay3
  rw [shapeCast_ab_1ab_apply]
  show Ideal.tanh (extractStridedSlice S256x1024 ![0, 1024] (k0_pay1 (F := Ideal) v0 v2 v4 v6 v8) slices_S256x2048_o0_1024_S256x1024 (ix2 p q)) = _
  rw [slice2_axis1_apply 1024 (k0_pay1 (F := Ideal) v0 v2 v4 v6 v8) slices_S256x2048_o0_1024_S256x1024 p q o ho]

end Cert.KernelIdeal.Point

end
-- ==== Proof.Spec.lean ====
/-
  What both programs compute, as functions of the five argument arrays, index by index on the extended reals.

  For a batch row `b`, a cell `c` and a pre-activation column `o < 2048`,

      net b c o = (Σ_k x[b,k]·Wx[c,o,k] + Σ_k h[b,k]·Wh[c,o,k]) + bx[c,o],

  the two contractions over the 1024 input features added first and the bias last. The gate output is the logistic
  of the lower 1024 columns, the cell output the hyperbolic tangent of the upper 1024, both laid out
  [batch, cell, feature]. The kernel writes the same numbers in the layout [cell, batch, feature]; `gateCB` and
  `cellCB` name that arrangement, and `gate_swap` / `cell_swap` say the two arrangements hold one value at
  swapped coordinates.
-/
import Idealize.ShloMosaic.PureOps.Ideal
import Idealize.ShloMosaic.PureOps.IdealRules
import Idealize.ShloMosaic.Lib.ValueIdx

noncomputable section

namespace Cert.GateCell

open Idealize.ShloMosaic Idealize.ShloMosaic.ValueIdx

/-- Column `q` of the lower half of the 2048 pre-activation columns. -/
def lo (q : Fin 1024) : Fin 2048 := ⟨q.val, by have := q.isLt; omega⟩
/-- Column `q` of the upper half. -/
def hi (q : Fin 1024) : Fin 2048 := ⟨1024 + q.val, by have := q.isLt; omega⟩

@[simp] theorem lo_val (q : Fin 1024) : (lo q).val = q.val := rfl
@[simp] theorem hi_val (q : Fin 1024) : (hi q).val = 1024 + q.val := rfl

section
variable (X H : FVec Ideal ⟨2, ![4096, 1024]⟩ .f32) (WX WH : FVec Ideal ⟨3, ![16, 2048, 1024]⟩ .f32)
  (B : FVec Ideal ⟨2, ![16, 2048]⟩ .f32)

/-- The pre-activation of batch row `b`, cell `c`, column `o`: the input's and the hidden state's contractions with
    the cell's two weight matrices, added, then the cell's bias. -/
def net (b : Fin 4096) (c : Fin 16) (o : Fin 2048) : EReal :=
  (∑ k : Fin 1024, X (ix2 b k) * WX (ix3 c o k) + ∑ k : Fin 1024, H (ix2 b k) * WH (ix3 c o k)) + B (ix2 c o)

/-- The input gate, [batch, cell, feature]: the logistic of the lower columns. -/
def gate : FVec Ideal ⟨3, ![4096, 16, 1024]⟩ .f32 := fun i => Ideal.logistic (net X H WX WH B (i 0) (i 1) (lo (i 2)))
/-- The cell input, [batch, cell, feature]: the hyperbolic tangent of the upper columns. -/
def cell : FVec Ideal ⟨3, ![4096, 16, 1024]⟩ .f32 := fun i => Ideal.tanh (net X H WX WH B (i 0) (i 1) (hi (i 2)))

/-- The input gate in the layout [cell, batch, feature]. -/
def gateCB : FVec Ideal ⟨3, ![16, 4096, 1024]⟩ .f32 := fun i => Ideal.logistic (net X H WX WH B (i 1) (i 0) (lo (i 2)))
/-- The cell input in the layout [cell, batch, feature]. -/
def cellCB : FVec Ideal ⟨3, ![16, 4096, 1024]⟩ .f32 := fun i => Ideal.tanh (net X H WX WH B (i 1) (i 0) (hi (i 2)))

theorem gate_swap (b : Fin 4096) (c : Fin 16) (q : Fin 1024) :
    gateCB X H WX WH B (ix3 c b q) = gate X H WX WH B (ix3 b c q) := rfl
theorem cell_swap (b : Fin 4096) (c : Fin 16) (q : Fin 1024) :
    cellCB X H WX WH B (ix3 c b q) = cell X H WX WH B (ix3 b c q) := rfl
end

/-- The f32 pattern of one denotes the extended real one. -/
theorem one_f32 : Ideal.ofBits .f32 0x3F800000#32 = 1 := IdealRules.sign_bit.ideal_onePat .f32

end Cert.GateCell

end
-- ==== Proof.KernelArrays.lean ====
/-
  What the kernel leaves in its two result arrays, and in the program's two results.

  The staged operands are the arguments themselves: a change of float format is the identity on the extended reals,
  and the bias staged as [16, 1, 2048] holds the bias argument's (c, o) at (c, 0, o). At the grid point of cell `c`
  and batch tile `bt` the body sees rows 256·bt … 256·bt + 255 of the input and of the hidden state and cell `c`'s
  weights and bias, so the block it writes back at (c, bt, 0) is that block of the specification's
  [cell, batch, feature] arrays. The 256 blocks tile each array, so the whole array is the specification's; the two
  transposes after the call swap the first two axes, which gives the [batch, cell, feature] results.
-/
import proofs.«105045_j78735340470740_1_alg».proof.Proof.Gen.KernelIdeal.Frame
import proofs.«105045_j78735340470740_1_alg».proof.Proof.GridFacts
import proofs.«105045_j78735340470740_1_alg».proof.Proof.KernelPoint
import proofs.«105045_j78735340470740_1_alg».proof.Proof.Spec
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.Arrays

open Cert.KernelIdeal Cert.KernelIdeal.Gen Cert.GateCell Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The staged operands are the arguments -/

theorem staged_x (c : Dev nD) : (V m c main_v0 : S4096x1024.Idx → EReal) = m ((c : Thread nD τ).loc main_arg0) := by
  show StableHlo.after hostOps0 (fun b => m (c, b)) (Proc.devRef .tc main_v0) = _
  after_results
  rfl
theorem staged_h (c : Dev nD) : (V m c main_v1 : S4096x1024.Idx → EReal) = m ((c : Thread nD τ).loc main_arg1) := by
  show StableHlo.after hostOps0 (fun b => m (c, b)) (Proc.devRef .tc main_v1) = _
  after_results
  rfl
theorem staged_wx (c : Dev nD) : (V m c main_v2 : S16x2048x1024.Idx → EReal) = m ((c : Thread nD τ).loc main_arg2) := by
  show StableHlo.after hostOps0 (fun b => m (c, b)) (Proc.devRef .tc main_v2) = _
  after_results
  rfl
theorem staged_wh (c : Dev nD) : (V m c main_v3 : S16x2048x1024.Idx → EReal) = m ((c : Thread nD τ).loc main_arg4) := by
  show StableHlo.after hostOps0 (fun b => m (c, b)) (Proc.devRef .tc main_v3) = _
  after_results
  rfl
theorem staged_b (c : Dev nD) : (V m c main_v4 : S16x1x2048.Idx → EReal) = shapeCast S16x1x2048 (m ((c : Thread nD τ).loc main_arg3)) shapeCasts_S16x2048_S16x1x2048 := by
  show StableHlo.after hostOps0 (fun b => m (c, b)) (Proc.devRef .tc main_v4) = _
  after_results
  rfl

/-- The bias as staged, [16, 1, 2048], at (cc, 0, o) is the bias argument at (cc, o). -/
theorem staged_b_apply (c : Dev nD) (cc : Fin 16) (u : Fin 1) (o : Fin 2048) :
    (V m c main_v4 : S16x1x2048.Idx → EReal) (ix3 cc u o) = m ((c : Thread nD τ).loc main_arg3) (ix2 cc o) := by
  rw [staged_b]
  exact shapeCast_apply _ _ _ _ (by
    have hu : u.val = 0 := by omega
    show (S16x2048.rowMajor (ix2 cc o)).val = (S16x1x2048.rowMajor (ix3 cc u o)).val
    rw [Shape.rowMajor_val_two, Shape.rowMajor_val_three]
    show cc.val * 2048 + o.val = (cc.val * 1 + u.val) * 2048 + o.val
    rw [hu]; omega)

/-! ## Each window's block at a point, read off the arguments -/

/-- The input's block: row `p` of the block is row 256·(block index) + p of the input. -/
theorem xblk_apply (c : Dev nD) (t : Fin cfg0.N) (p : Fin 256) (k : Fin 1024) (b : Fin 4096)
    (hb : b.val = win0_0.index t (0 : Fin 2) * 256 + p.val) (h1 : win0_0.index t (1 : Fin 2) = 0) :
    (iblk m c 0 t : S256x1024.Idx → EReal) (ix2 p k) = m ((c : Thread nD τ).loc main_arg0) (ix2 b k) := by
  show (V m c main_v0 : S4096x1024.Idx → EReal) (((cfg0.win 0).blk t).view.emb (ix2 p k)) = _
  rw [staged_x]
  congr 1
  funext a
  apply Fin.ext
  match a with
  | ⟨0, _⟩ => show win0_0.index t (0 : Fin 2) * 256 + 1 * p.val = b.val; omega
  | ⟨1, _⟩ => show win0_0.index t (1 : Fin 2) * 1024 + 1 * k.val = k.val; omega

/-- The hidden state's block, likewise. -/
theorem hblk_apply (c : Dev nD) (t : Fin cfg0.N) (p : Fin 256) (k : Fin 1024) (b : Fin 4096)
    (hb : b.val = win0_1.index t (0 : Fin 2) * 256 + p.val) (h1 : win0_1.index t (1 : Fin 2) = 0) :
    (iblk m c 1 t : S256x1024.Idx → EReal) (ix2 p k) = m ((c : Thread nD τ).loc main_arg1) (ix2 b k) := by
  show (V m c main_v1 : S4096x1024.Idx → EReal) (((cfg0.win 1).blk t).view.emb (ix2 p k)) = _
  rw [staged_h]
  congr 1
  funext a
  apply Fin.ext
  match a with
  | ⟨0, _⟩ => show win0_1.index t (0 : Fin 2) * 256 + 1 * p.val = b.val; omega
  | ⟨1, _⟩ => show win0_1.index t (1 : Fin 2) * 1024 + 1 * k.val = k.val; omega

/-- The input weights' block is one cell's whole matrix. -/
theorem wxblk_apply (c : Dev nD) (t : Fin cfg0.N) (u : Fin 1) (o : Fin 2048) (k : Fin 1024) (cc : Fin 16)
    (hc : cc.val = win0_2.index t (0 : Fin 3) * 1 + u.val) (h1 : win0_2.index t (1 : Fin 3) = 0) (h2 : win0_2.index t (2 : Fin 3) = 0) :
    (iblk m c 2 t : S1x2048x1024.Idx → EReal) (ix3 u o k) = m ((c : Thread nD τ).loc main_arg2) (ix3 cc o k) := by
  show (V m c main_v2 : S16x2048x1024.Idx → EReal) (((cfg0.win 2).blk t).view.emb (ix3 u o k)) = _
  rw [staged_wx]
  congr 1
  funext a
  apply Fin.ext
  match a with
  | ⟨0, _⟩ => show win0_2.index t (0 : Fin 3) * 1 + 1 * u.val = cc.val; omega
  | ⟨1, _⟩ => show win0_2.index t (1 : Fin 3) * 2048 + 1 * o.val = o.val; omega
  | ⟨2, _⟩ => show win0_2.index t (2 : Fin 3) * 1024 + 1 * k.val = k.val; omega

/-- The hidden weights' block, likewise. -/
theorem whblk_apply (c : Dev nD) (t : Fin cfg0.N) (u : Fin 1) (o : Fin 2048) (k : Fin 1024) (cc : Fin 16)
    (hc : cc.val = win0_3.index t (0 : Fin 3) * 1 + u.val) (h1 : win0_3.index t (1 : Fin 3) = 0) (h2 : win0_3.index t (2 : Fin 3) = 0) :
    (iblk m c 3 t : S1x2048x1024.Idx → EReal) (ix3 u o k) = m ((c : Thread nD τ).loc main_arg4) (ix3 cc o k) := by
  show (V m c main_v3 : S16x2048x1024.Idx → EReal) (((cfg0.win 3).blk t).view.emb (ix3 u o k)) = _
  rw [staged_wh]
  congr 1
  funext a
  apply Fin.ext
  match a with
  | ⟨0, _⟩ => show win0_3.index t (0 : Fin 3) * 1 + 1 * u.val = cc.val; omega
  | ⟨1, _⟩ => show win0_3.index t (1 : Fin 3) * 2048 + 1 * o.val = o.val; omega
  | ⟨2, _⟩ => show win0_3.index t (2 : Fin 3) * 1024 + 1 * k.val = k.val; omega

/-- The bias block is one cell's row. -/
theorem bblk_apply (c : Dev nD) (t : Fin cfg0.N) (u u' : Fin 1) (o : Fin 2048) (cc : Fin 16)
    (hc : cc.val = win0_4.index t (0 : Fin 3) * 1 + u.val) (h1 : win0_4.index t (1 : Fin 3) = 0) (h2 : win0_4.index t (2 : Fin 3) = 0) :
    (iblk m c 4 t : S1x1x2048.Idx → EReal) (ix3 u u' o) = m ((c : Thread nD τ).loc main_arg3) (ix2 cc o) := by
  show (V m c main_v4 : S16x1x2048.Idx → EReal) (((cfg0.win 4).blk t).view.emb (ix3 u u' o)) = _
  have e : ((cfg0.win 4).blk t).view.emb (ix3 u u' o) = ix3 cc (0 : Fin 1) o := funext fun a => Fin.ext (by
    match a with
    | ⟨0, _⟩ => show win0_4.index t (0 : Fin 3) * 1 + 1 * u.val = cc.val; omega
    | ⟨1, _⟩ => show win0_4.index t (1 : Fin 3) * 1 + 1 * u'.val = 0; omega
    | ⟨2, _⟩ => show win0_4.index t (2 : Fin 3) * 2048 + 1 * o.val = o.val; omega)
  rw [e, staged_b_apply]

/-! ## One point's pre-activation is the specification's -/

/-- At the grid point whose output block sits at cell `cc` and rows 256·bt …, the pre-activation the body forms at
    block row `p` and column `o` is the specification's pre-activation of batch row `b = 256·bt + p`, cell `cc`. -/
theorem preact_point (c : Dev nD) (t : Fin cfg0.N) (p : Fin 256) (o : Fin 2048) (cc : Fin 16) (b : Fin 4096)
    (hcc : cc.val = win0_5.index t (0 : Fin 3)) (hb : b.val = win0_5.index t (1 : Fin 3) * 256 + p.val) :
    k0_pay1 (F := Ideal) (iblk m c 0 t) (iblk m c 1 t) (iblk m c 2 t) (iblk m c 3 t) (iblk m c 4 t) (ix2 p o)
      = net (m ((c : Thread nD τ).loc main_arg0)) (m ((c : Thread nD τ).loc main_arg1)) (m ((c : Thread nD τ).loc main_arg2))
          (m ((c : Thread nD τ).loc main_arg4)) (m ((c : Thread nD τ).loc main_arg3)) b cc o := by
  obtain ⟨f0, f1, f2, f3, f4, f5, f6, f7, f8, f9, f10, f11, f12, f13, f14, f15, f16, f17, f18⟩ := idx_facts t
  refine (Point.preact_apply (iblk m c 0 t) (iblk m c 1 t) (iblk m c 2 t) (iblk m c 3 t) (iblk m c 4 t) p o).trans ?_
  have h0 : ((0 : Fin 1) : Nat) = 0 := rfl
  have hc2 : cc.val = win0_2.index t (0 : Fin 3) * 1 + ((0 : Fin 1) : Nat) := by omega
  have hc3 : cc.val = win0_3.index t (0 : Fin 3) * 1 + ((0 : Fin 1) : Nat) := by omega
  have hc4 : cc.val = win0_4.index t (0 : Fin 3) * 1 + ((0 : Fin 1) : Nat) := by omega
  have hx : ∀ k : Fin 1024, (iblk m c 0 t : S256x1024.Idx → EReal) (ix2 p k) = m ((c : Thread nD τ).loc main_arg0) (ix2 b k) :=
    fun k => xblk_apply m c t p k b (by omega) f1
  have hh : ∀ k : Fin 1024, (iblk m c 1 t : S256x1024.Idx → EReal) (ix2 p k) = m ((c : Thread nD τ).loc main_arg1) (ix2 b k) :=
    fun k => hblk_apply m c t p k b (by omega) f3
  have hwx : ∀ k : Fin 1024, (iblk m c 2 t : S1x2048x1024.Idx → EReal) (ix3 (0 : Fin 1) o k) = m ((c : Thread nD τ).loc main_arg2) (ix3 cc o k) :=
    fun k => wxblk_apply m c t 0 o k cc hc2 f5 f6
  have hwh : ∀ k : Fin 1024, (iblk m c 3 t : S1x2048x1024.Idx → EReal) (ix3 (0 : Fin 1) o k) = m ((c : Thread nD τ).loc main_arg4) (ix3 cc o k) :=
    fun k => whblk_apply m c t 0 o k cc hc3 f8 f9
  have hbias : (iblk m c 4 t : S1x1x2048.Idx → EReal) (ix3 (0 : Fin 1) (0 : Fin 1) o) = m ((c : Thread nD τ).loc main_arg3) (ix2 cc o) :=
    bblk_apply m c t 0 0 o cc hc4 f11 f12
  simp only [hx, hh, hwx, hwh, hbias]
  rfl

/-- So the stored gate block at (u, p, q) is the specification's gate, [cell, batch, feature], at (cc, b, q), -/
theorem gate_point (c : Dev nD) (t : Fin cfg0.N) (u : Fin 1) (p : Fin 256) (q : Fin 1024) (cc : Fin 16) (b : Fin 4096)
    (hcc : cc.val = win0_5.index t (0 : Fin 3)) (hb : b.val = win0_5.index t (1 : Fin 3) * 256 + p.val) :
    k0_pay2 (F := Ideal) (iblk m c 0 t) (iblk m c 1 t) (iblk m c 2 t) (iblk m c 3 t) (iblk m c 4 t) (ix3 u p q)
      = gateCB (m ((c : Thread nD τ).loc main_arg0)) (m ((c : Thread nD τ).loc main_arg1)) (m ((c : Thread nD τ).loc main_arg2))
          (m ((c : Thread nD τ).loc main_arg4)) (m ((c : Thread nD τ).loc main_arg3)) (ix3 cc b q) :=
  (Point.gateBlock_apply (iblk m c 0 t) (iblk m c 1 t) (iblk m c 2 t) (iblk m c 3 t) (iblk m c 4 t) u p q (lo q) rfl).trans
    (congrArg Ideal.logistic (preact_point m c t p (lo q) cc b hcc hb))

/-- and the stored cell block the specification's cell input there. -/
theorem cell_point (c : Dev nD) (t : Fin cfg0.N) (u : Fin 1) (p : Fin 256) (q : Fin 1024) (cc : Fin 16) (b : Fin 4096)
    (hcc : cc.val = win0_5.index t (0 : Fin 3)) (hb : b.val = win0_5.index t (1 : Fin 3) * 256 + p.val) :
    k0_pay3 (F := Ideal) (iblk m c 0 t) (iblk m c 1 t) (iblk m c 2 t) (iblk m c 3 t) (iblk m c 4 t) (ix3 u p q)
      = cellCB (m ((c : Thread nD τ).loc main_arg0)) (m ((c : Thread nD τ).loc main_arg1)) (m ((c : Thread nD τ).loc main_arg2))
          (m ((c : Thread nD τ).loc main_arg4)) (m ((c : Thread nD τ).loc main_arg3)) (ix3 cc b q) :=
  (Point.cellBlock_apply (iblk m c 0 t) (iblk m c 1 t) (iblk m c 2 t) (iblk m c 3 t) (iblk m c 4 t) u p q (hi q) rfl).trans
    (congrArg Ideal.tanh (preact_point m c t p (hi q) cc b hcc hb))

/-! ## What a point writes back, and the arrays after the run -/

theorem zero2 : (![0, 0] : Fin 2 → Nat) = fun _ => 0 := funext fun a => by fin_cases a <;> rfl
theorem zero3 : (![0, 0, 0] : Fin 3 → Nat) = fun _ => 0 := funext fun a => by fin_cases a <;> rfl

/-- Point `t` writes back to the gate array the block of the specification's gate under its window. -/
theorem gate_flushed (c : Dev nD) (t : Fin cfg0.N) :
    (dats m 0 c).flushed 5 t = ((cfg0.win 5).blk t).view.read (Elt Ideal)
      (gateCB (m ((c : Thread nD τ).loc main_arg0)) (m ((c : Thread nD τ).loc main_arg1)) (m ((c : Thread nD τ).loc main_arg2))
        (m ((c : Thread nD τ).loc main_arg4)) (m ((c : Thread nD τ).loc main_arg3))) := by
  show (cfg0.win 5).cut (grid0.coords t) ((dats m 0 c).after 5 t) = _
  rw [after0_5]
  unfold out0_5
  rw [View.canon_unit_zero zero3]
  simp only [View.ld_unit_zero (S := S256x1024) zero2, View.ld_unit_zero (S := S1x2048x1024) zero3, View.ld_unit_zero (S := S1x1x2048) zero3]
  funext j
  obtain ⟨u, p, q, rfl⟩ : ∃ (u : Fin 1) (p : Fin 256) (q : Fin 1024), j = ix3 u p q := ⟨j 0, j 1, j 2, eq_ix3 j⟩
  obtain ⟨f0, f1, f2, f3, f4, f5, f6, f7, f8, f9, f10, f11, f12, f13, f14, f15, f16, f17, f18⟩ := idx_facts t
  have hu : u.val = 0 := by omega
  have hp : p.val < 256 := p.isLt
  have e : ((cfg0.win 5).blk t).view.emb (ix3 u p q)
      = ix3 (⟨win0_5.index t (0 : Fin 3), by omega⟩ : Fin 16) (⟨win0_5.index t (1 : Fin 3) * 256 + p.val, by omega⟩ : Fin 4096) q :=
    funext fun a => Fin.ext (by
      match a with
      | ⟨0, _⟩ => show win0_5.index t (0 : Fin 3) * 1 + 1 * u.val = win0_5.index t (0 : Fin 3); omega
      | ⟨1, _⟩ => show win0_5.index t (1 : Fin 3) * 256 + 1 * p.val = win0_5.index t (1 : Fin 3) * 256 + p.val; omega
      | ⟨2, _⟩ => show win0_5.index t (2 : Fin 3) * 1024 + 1 * q.val = q.val; omega)
  show k0_pay2 (F := Ideal) (iblk m c 0 t) (iblk m c 1 t) (iblk m c 2 t) (iblk m c 3 t) (iblk m c 4 t) (ix3 u p q)
    = gateCB _ _ _ _ _ (((cfg0.win 5).blk t).view.emb (ix3 u p q))
  rw [e]
  exact gate_point m c t u p q _ _ rfl rfl

/-- Point `t` writes back to the cell array the block of the specification's cell input under its window. -/
theorem cell_flushed (c : Dev nD) (t : Fin cfg0.N) :
    (dats m 0 c).flushed 6 t = ((cfg0.win 6).blk t).view.read (Elt Ideal)
      (cellCB (m ((c : Thread nD τ).loc main_arg0)) (m ((c : Thread nD τ).loc main_arg1)) (m ((c : Thread nD τ).loc main_arg2))
        (m ((c : Thread nD τ).loc main_arg4)) (m ((c : Thread nD τ).loc main_arg3))) := by
  show (cfg0.win 6).cut (grid0.coords t) ((dats m 0 c).after 6 t) = _
  rw [after0_6]
  unfold out0_6
  rw [View.canon_unit_zero zero3]
  simp only [View.ld_unit_zero (S := S256x1024) zero2, View.ld_unit_zero (S := S1x2048x1024) zero3, View.ld_unit_zero (S := S1x1x2048) zero3]
  funext j
  obtain ⟨u, p, q, rfl⟩ : ∃ (u : Fin 1) (p : Fin 256) (q : Fin 1024), j = ix3 u p q := ⟨j 0, j 1, j 2, eq_ix3 j⟩
  obtain ⟨f0, f1, f2, f3, f4, f5, f6, f7, f8, f9, f10, f11, f12, f13, f14, f15, f16, f17, f18⟩ := idx_facts t
  have hu : u.val = 0 := by omega
  have hp : p.val < 256 := p.isLt
  have e : ((cfg0.win 6).blk t).view.emb (ix3 u p q)
      = ix3 (⟨win0_5.index t (0 : Fin 3), by omega⟩ : Fin 16) (⟨win0_5.index t (1 : Fin 3) * 256 + p.val, by omega⟩ : Fin 4096) q :=
    funext fun a => Fin.ext (by
      match a with
      | ⟨0, _⟩ => show win0_6.index t (0 : Fin 3) * 1 + 1 * u.val = win0_5.index t (0 : Fin 3); omega
      | ⟨1, _⟩ => show win0_6.index t (1 : Fin 3) * 256 + 1 * p.val = win0_5.index t (1 : Fin 3) * 256 + p.val; omega
      | ⟨2, _⟩ => show win0_6.index t (2 : Fin 3) * 1024 + 1 * q.val = q.val; omega)
  show k0_pay3 (F := Ideal) (iblk m c 0 t) (iblk m c 1 t) (iblk m c 2 t) (iblk m c 3 t) (iblk m c 4 t) (ix3 u p q)
    = cellCB _ _ _ _ _ (((cfg0.win 6).blk t).view.emb (ix3 u p q))
  rw [e]
  exact cell_point m c t u p q _ _ rfl rfl

/-- An index of the gate array lies under point `t`'s block iff each coordinate is in the block's range. -/
theorem mem_gate_blk (t : Fin cfg0.N) (i : S16x4096x1024.Idx) :
    i ∈ ((cfg0.win 5).blk t).view.set ↔ ∀ a : Fin 3, win0_5.index t a * S1x256x1024.size a ≤ (i a).val ∧ (i a).val < win0_5.index t a * S1x256x1024.size a + S1x256x1024.size a := by
  show i ∈ ((View.whole main_v5_0).slice (win0_5.rect t)).set ↔ _
  rw [View.set_slice_whole, Rect.mem_set_unit]
  exact Iff.rfl
theorem mem_cell_blk (t : Fin cfg0.N) (i : S16x4096x1024.Idx) :
    i ∈ ((cfg0.win 6).blk t).view.set ↔ ∀ a : Fin 3, win0_6.index t a * S1x256x1024.size a ≤ (i a).val ∧ (i a).val < win0_6.index t a * S1x256x1024.size a + S1x256x1024.size a := by
  show i ∈ ((View.whole main_v5_1).slice (win0_6.rect t)).set ↔ _
  rw [View.set_slice_whole, Rect.mem_set_unit]
  exact Iff.rfl

/-- Every index of the gate array is under the block of the point of its cell and its batch tile. -/
theorem gate_cover (i : S16x4096x1024.Idx) : ∃ t : Fin cfg0.N, (cfg0.win 5).flush t = true ∧ i ∈ ((cfg0.win 5).blk t).view.set := by
  have hi0 : (i 0).val < 16 := (i 0).isLt
  have hi1 : (i 1).val < 4096 := (i 1).isLt
  have hi2 : (i 2).val < 1024 := (i 2).isLt
  obtain ⟨t, ht⟩ := idx_onto ⟨(i 0).val, hi0⟩ ⟨(i 1).val / 256, by omega⟩
  have q0 : win0_5.index t (0 : Fin 3) = (i 0).val := congrFun ht 0
  have q1 : win0_5.index t (1 : Fin 3) = (i 1).val / 256 := congrFun ht 1
  have q2 : win0_5.index t (2 : Fin 3) = 0 := congrFun ht 2
  refine ⟨t, flush0_5 t, ?_⟩
  rw [mem_gate_blk]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 256 ≤ (i 1).val ∧ (i 1).val < win0_5.index t (1 : Fin 3) * 256 + 256; omega
  | ⟨2, _⟩ => show win0_5.index t (2 : Fin 3) * 1024 ≤ (i 2).val ∧ (i 2).val < win0_5.index t (2 : Fin 3) * 1024 + 1024; omega
theorem cell_cover (i : S16x4096x1024.Idx) : ∃ t : Fin cfg0.N, (cfg0.win 6).flush t = true ∧ i ∈ ((cfg0.win 6).blk t).view.set := by
  have hi0 : (i 0).val < 16 := (i 0).isLt
  have hi1 : (i 1).val < 4096 := (i 1).isLt
  have hi2 : (i 2).val < 1024 := (i 2).isLt
  obtain ⟨t, ht⟩ := idx_onto ⟨(i 0).val, hi0⟩ ⟨(i 1).val / 256, by omega⟩
  obtain ⟨f0, f1, f2, f3, f4, f5, f6, f7, f8, f9, f10, f11, f12, f13, f14, f15, f16, f17, f18⟩ := idx_facts t
  have q0 : win0_5.index t (0 : Fin 3) = (i 0).val := congrFun ht 0
  have q1 : win0_5.index t (1 : Fin 3) = (i 1).val / 256 := congrFun ht 1
  refine ⟨t, flush0_6 t, ?_⟩
  rw [mem_cell_blk]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 256 ≤ (i 1).val ∧ (i 1).val < win0_6.index t (1 : Fin 3) * 256 + 256; omega
  | ⟨2, _⟩ => show win0_6.index t (2 : Fin 3) * 1024 ≤ (i 2).val ∧ (i 2).val < win0_6.index t (2 : Fin 3) * 1024 + 1024; omega

/-- After the run the gate array holds the specification's gate, [cell, batch, feature]. -/
theorem gate_array (c : Dev nD) : (dats m 0 c).arrAt 5 cfg0.N
    = gateCB (m ((c : Thread nD τ).loc main_arg0)) (m ((c : Thread nD τ).loc main_arg1)) (m ((c : Thread nD τ).loc main_arg2))
        (m ((c : Thread nD τ).loc main_arg4)) (m ((c : Thread nD τ).loc main_arg3)) :=
  (dats m 0 c).arrAt_eq_of_cover 5 _ (fun t _ => gate_flushed m c t) gate_cover
/-- After the run the cell array holds the specification's cell input, [cell, batch, feature]. -/
theorem cell_array (c : Dev nD) : (dats m 0 c).arrAt 6 cfg0.N
    = cellCB (m ((c : Thread nD τ).loc main_arg0)) (m ((c : Thread nD τ).loc main_arg1)) (m ((c : Thread nD τ).loc main_arg2))
        (m ((c : Thread nD τ).loc main_arg4)) (m ((c : Thread nD τ).loc main_arg3)) :=
  (dats m 0 c).arrAt_eq_of_cover 6 _ (fun t _ => cell_flushed m c t) cell_cover

/-! ## The two results -/

/-- The first result: the cell array with its first two axes swapped is the cell input, [batch, cell, feature]. -/
theorem cell_result (c : Dev nD) :
    Pipeline.afterTail₀ cfgs (dats m) 0 (V0 m) [hostOps1] c main_v7
      = cell (m ((c : Thread nD τ).loc main_arg0)) (m ((c : Thread nD τ).loc main_arg1)) (m ((c : Thread nD τ).loc main_arg2))
        (m ((c : Thread nD τ).loc main_arg4)) (m ((c : Thread nD τ).loc main_arg3)) := by
  unfold Pipeline.afterTail₀
  show StableHlo.after hostOps1 _ (Proc.devRef .tc main_v7) = _
  after_results
  have hw : Pipeline.withArrays (cfgs 0).spec c (V0 m c) (fun w => (dats m 0 c).arrAt w (cfgs 0).N) (Proc.devRef .tc main_v5_1)
      = cellCB (m ((c : Thread nD τ).loc main_arg0)) (m ((c : Thread nD τ).loc main_arg1)) (m ((c : Thread nD τ).loc main_arg2))
        (m ((c : Thread nD τ).loc main_arg4)) (m ((c : Thread nD τ).loc main_arg3)) :=
    (Pipeline.withArrays_arr spec0 launch0.win.arr_inj c _ _ 6).trans (cell_array m c)
  rw [hw]
  funext i
  obtain ⟨b, cc, q, rfl⟩ : ∃ (b : Fin 4096) (cc : Fin 16) (q : Fin 1024), i = ix3 b cc q := ⟨i 0, i 1, i 2, eq_ix3 i⟩
  exact (transpose_apply [1, 0, 2] _ transposes_S16x4096x1024_S4096x16x1024_1_0_2 (ix3 b cc q) (ix3 cc b q)
    (fun a => match a with | ⟨0, _⟩ => rfl | ⟨1, _⟩ => rfl | ⟨2, _⟩ => rfl)).trans (cell_swap _ _ _ _ _ b cc q)

/-- The second result: the gate array with its first two axes swapped is the input gate, [batch, cell, feature]. -/
theorem gate_result (c : Dev nD) :
    Pipeline.afterTail₀ cfgs (dats m) 0 (V0 m) [hostOps1] c main_v6
      = gate (m ((c : Thread nD τ).loc main_arg0)) (m ((c : Thread nD τ).loc main_arg1)) (m ((c : Thread nD τ).loc main_arg2))
        (m ((c : Thread nD τ).loc main_arg4)) (m ((c : Thread nD τ).loc main_arg3)) := by
  unfold Pipeline.afterTail₀
  show StableHlo.after hostOps1 _ (Proc.devRef .tc main_v6) = _
  after_results
  have hw : Pipeline.withArrays (cfgs 0).spec c (V0 m c) (fun w => (dats m 0 c).arrAt w (cfgs 0).N) (Proc.devRef .tc main_v5_0)
      = gateCB (m ((c : Thread nD τ).loc main_arg0)) (m ((c : Thread nD τ).loc main_arg1)) (m ((c : Thread nD τ).loc main_arg2))
        (m ((c : Thread nD τ).loc main_arg4)) (m ((c : Thread nD τ).loc main_arg3)) :=
    (Pipeline.withArrays_arr spec0 launch0.win.arr_inj c _ _ 5).trans (gate_array m c)
  rw [hw]
  funext i
  obtain ⟨b, cc, q, rfl⟩ : ∃ (b : Fin 4096) (cc : Fin 16) (q : Fin 1024), i = ix3 b cc q := ⟨i 0, i 1, i 2, eq_ix3 i⟩
  exact (transpose_apply [1, 0, 2] _ transposes_S16x4096x1024_S4096x16x1024_1_0_2 (ix3 b cc q) (ix3 cc b q)
    (fun a => match a with | ⟨0, _⟩ => rfl | ⟨1, _⟩ => rfl | ⟨2, _⟩ => rfl)).trans (gate_swap _ _ _ _ _ b cc q)

/-! ## The run, read -/

/-- Every weakly fair execution ends with the two results at the specification's cell input and input gate of the
    arguments, the arguments unchanged. -/
theorem run : θ_run defs (onTc (τ := τ) (main (F := Ideal))) ⟨m, fun _ => 0, ρ⟩ fun r => ∀ c : Dev nD,
      r.2.mem ((c : Thread nD τ).loc main_v7) = cell (m ((c : Thread nD τ).loc main_arg0)) (m ((c : Thread nD τ).loc main_arg1)) (m ((c : Thread nD τ).loc main_arg2))
        (m ((c : Thread nD τ).loc main_arg4)) (m ((c : Thread nD τ).loc main_arg3))
      ∧ r.2.mem ((c : Thread nD τ).loc main_v6) = gate (m ((c : Thread nD τ).loc main_arg0)) (m ((c : Thread nD τ).loc main_arg1)) (m ((c : Thread nD τ).loc main_arg2))
        (m ((c : Thread nD τ).loc main_arg4)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c =>
    ⟨((h c).2 main_v7 (Pipeline.mem_restRefs_of main_v7 (by decide) (by decide))).trans (cell_result m c),
      ((h c).2 main_v6 (Pipeline.mem_restRefs_of main_v6 (by decide) (by decide))).trans (gate_result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Arrays

end
-- ==== Proof.RefSide.lean ====
/-
  The reference, read index by index, is the specification.

  Its two `dot_general`s contract the feature axis of the input (and of the hidden state) with the last axis of the
  stacked weights, giving Σ_k x[b,k]·Wx[c,o,k] and Σ_k h[b,k]·Wh[c,o,k] at (b, c, o); they are added first and the bias,
  broadcast over the batch, is added last: the specification's pre-activation, in the same grouping. The cell output
  is the hyperbolic tangent of the upper 1024 columns. The gate output is spelt 1 / (1 + exp(−z)) on the lower 1024
  columns, which on the extended reals is the logistic function by definition.
-/
import proofs.«105045_j78735340470740_1_alg».proof.Proof.Gen.ReferenceIdeal.Read
import proofs.«105045_j78735340470740_1_alg».proof.Proof.Spec

noncomputable section

namespace Cert.ReferenceIdeal.Against

open Cert.ReferenceIdeal Cert.ReferenceIdeal.Read Cert.GateCell Idealize.ShloMosaic Idealize.ShloMosaic.ValueIdx

variable (x0 x1 : (⟨S4096x1024, .f32⟩ : BufTy).Contents (Elt Ideal)) (x2 : (⟨S16x2048x1024, .f32⟩ : BufTy).Contents (Elt Ideal))
  (x3 : (⟨S16x2048, .f32⟩ : BufTy).Contents (Elt Ideal)) (x4 : (⟨S16x2048x1024, .f32⟩ : BufTy).Contents (Elt Ideal))

/-- The sum of the two contractions and the broadcast bias, at (b, c, o), is the specification's pre-activation. -/
theorem preact_eq (b : Fin 4096) (c : Fin 16) (o : Fin 2048) :
    val_main_v5 (F := Ideal) x0 x1 x2 x3 x4 (ix3 b c o) = net x0 x1 x2 x4 x3 b c o := by
  rw [val_main_v5_apply, val_main_v2_apply, val_main_v0_apply, val_main_v1_apply, val_main_v4_apply, val_main_v3_apply]
  have el0 : ∀ k, lidx_main_v0 (ix3 b c o) k = ix2 b k := fun k => funext fun a => by
    match a with | ⟨0, _⟩ => rfl | ⟨1, _⟩ => rfl
  have er0 : ∀ k, ridx_main_v0 (ix3 b c o) k = ix3 c o k := fun k => funext fun a => by
    match a with | ⟨0, _⟩ => rfl | ⟨1, _⟩ => rfl | ⟨2, _⟩ => rfl
  have el1 : ∀ k, lidx_main_v1 (ix3 b c o) k = ix2 b k := fun k => funext fun a => by
    match a with | ⟨0, _⟩ => rfl | ⟨1, _⟩ => rfl
  have er1 : ∀ k, ridx_main_v1 (ix3 b c o) k = ix3 c o k := fun k => funext fun a => by
    match a with | ⟨0, _⟩ => rfl | ⟨1, _⟩ => rfl | ⟨2, _⟩ => rfl
  have eb : idx_main_v3 (idx_main_v4 (ix3 b c o)) = ix2 c o := funext fun a => by
    match a with | ⟨0, _⟩ => rfl | ⟨1, _⟩ => rfl
  simp only [el0, er0, el1, er1, eb]
  rfl

/-- The reference's first result is the cell input of the specification. -/
theorem cell_eq : val_main_v8 (F := Ideal) x0 x1 x2 x3 x4 = cell x0 x1 x2 x4 x3 := by
  funext i
  obtain ⟨b, c, q, rfl⟩ : ∃ (b : Fin 4096) (c : Fin 16) (q : Fin 1024), i = ix3 b c q := ⟨i 0, i 1, i 2, eq_ix3 i⟩
  rw [val_main_v8_apply, val_main_v7_apply]
  have e : idx_main_v7 (ix3 b c q) = ix3 b c (hi q) := funext fun a => by
    match a with | ⟨0, _⟩ => rfl | ⟨1, _⟩ => rfl | ⟨2, _⟩ => rfl
  rw [e, preact_eq]
  rfl

/-- The reference's second result, 1 / (1 + exp(−z)) of the lower columns, is the input gate of the specification. -/
theorem gate_eq : val_main_v14 (F := Ideal) x0 x1 x2 x3 x4 = gate x0 x1 x2 x4 x3 := by
  funext i
  obtain ⟨b, c, q, rfl⟩ : ∃ (b : Fin 4096) (c : Fin 16) (q : Fin 1024), i = ix3 b c q := ⟨i 0, i 1, i 2, eq_ix3 i⟩
  rw [val_main_v14_apply, val_main_v13_apply, val_main_cst_0_apply, val_main_v12_apply, val_main_v11_apply, val_main_cst_apply,
    val_main_v10_apply, val_main_v9_apply, val_main_v6_apply]
  have e : idx_main_v6 (ix3 b c q) = ix3 b c (lo q) := funext fun a => by
    match a with | ⟨0, _⟩ => rfl | ⟨1, _⟩ => rfl | ⟨2, _⟩ => rfl
  rw [e, preact_eq]
  simp only [Ideal.hostDivf_def, Ideal.addf_def, Ideal.hostUnary_exp_def, Ideal.hostNegf_def, Ideal.negf_def, Ideal.ofBits_def, one_f32]
  rfl

end Cert.ReferenceIdeal.Against

end
-- ==== Proof.lean ====
/-
  The kernel computes, for every batch row b, cell c and feature q,

      gate[b,c,q] = logistic(net b c q),   cell[b,c,q] = tanh(net b c (1024 + q)),
      net b c o   = (Σ_k x[b,k]·Wx[c,o,k] + Σ_k h[b,k]·Wh[c,o,k]) + bx[c,o],

  on a 16 × 16 grid of (cell, batch tile) points, each writing one 256 × 1024 block of two [cell, batch, feature]
  arrays that are transposed to [batch, cell, feature] afterwards; the reference computes the same two arrays with two
  `dot_general`s over the whole inputs. On the extended reals the two agree with no use of the inputs' finiteness:
  the operands' change of float format is the identity, both matrix products are the same sums over the feature
  index, the three terms are added in the same grouping on both sides, the kernel's one logistic operation is
  1 / (1 + exp(−z)) by definition, and the tiling of the batch and the cells is only a choice of which index is
  computed where (Proof/Spec.lean states the two functions; Proof/KernelArrays.lean reads the kernel's run as them,
  Proof/RefSide.lean the reference's). The idealization rewrote nothing, so `preserves` has nothing to show.
-/
import proofs.«105045_j78735340470740_1_alg».proof.Defs
import proofs.«105045_j78735340470740_1_alg».proof.Proof.Gen.Kernel
import proofs.«105045_j78735340470740_1_alg».proof.Proof.Gen.Kernel.Skeleton
import proofs.«105045_j78735340470740_1_alg».proof.Proof.Gen.Kernel.Launch
import proofs.«105045_j78735340470740_1_alg».proof.Proof.Gen.Kernel.Points
import proofs.«105045_j78735340470740_1_alg».proof.Proof.Gen.Kernel.Frame
import proofs.«105045_j78735340470740_1_alg».proof.Proof.Gen.KernelIdeal
import proofs.«105045_j78735340470740_1_alg».proof.Proof.Gen.KernelIdeal.Skeleton
import proofs.«105045_j78735340470740_1_alg».proof.Proof.Gen.KernelIdeal.Launch
import proofs.«105045_j78735340470740_1_alg».proof.Proof.Gen.KernelIdeal.Points
import proofs.«105045_j78735340470740_1_alg».proof.Proof.Gen.KernelIdeal.Frame
import proofs.«105045_j78735340470740_1_alg».proof.Proof.Gen.ReferenceIdeal
import proofs.«105045_j78735340470740_1_alg».proof.Proof.Gen.Pre_finite_inputs
import proofs.«105045_j78735340470740_1_alg».proof.Proof.Gen.ReferenceIdeal.Run
import proofs.«105045_j78735340470740_1_alg».proof.Proof.Gen.ReferenceIdeal.Read
import proofs.«105045_j78735340470740_1_alg».proof.Proof.KernelArrays
import proofs.«105045_j78735340470740_1_alg».proof.Proof.RefSide
import Idealize.ShloMosaic.Adequacy
import Idealize.ShloMosaic.Init

noncomputable section

namespace Cert.Proof

open Idealize.ShloMosaic Idealize.SL.Sem Cert.GateCell

/-- The word-level kernel terminates without a fault and leaves its arguments as launched. -/
theorem frame_kernel : Cert.frame_Kernel := fun m ρ _ => Cert.Kernel.Gen.frame m ρ
/-- So does the kernel read on the extended reals. -/
theorem frame_kernelIdeal : Cert.frame_KernelIdeal := fun m ρ _ => Cert.KernelIdeal.Gen.frame m ρ
/-- The reference is a straight line of host operations: its run, with the two results forgotten. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- From memories that agree on the five arguments both programs end with the cell input and the input gate of the
    specification: the kernel's run read block by block, the reference's operation by operation. -/
theorem algebraic : Cert.algebraic_KernelIdeal_ReferenceIdeal := by
  intro m ρ m' ρ' _ hagree
  refine ⟨_, _, Cert.KernelIdeal.Arrays.run m ρ, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v8_eq, Cert.ReferenceIdeal.Against.cell_eq,
      (hagree c).1, (hagree c).2.1, (hagree c).2.2.1, (hagree c).2.2.2.1, (hagree c).2.2.2.2]
  · rw [(h c).2.1, Cert.ReferenceIdeal.Read.val_main_v14_eq, Cert.ReferenceIdeal.Against.gate_eq,
      (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
